-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16384x128 .f32) (main_arg1 : FVec F S128x128 .f32) (main_arg2 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16384x128 : Shape := ⟨2, ![16384, 128]⟩
abbrev S128x128 : Shape := ⟨2, ![128, 128]⟩
abbrev S128 : Shape := ⟨1, ![128]⟩
abbrev S128x1 : Shape := ⟨2, ![128, 1]⟩
abbrev S8192x128 : Shape := ⟨2, ![8192, 128]⟩
abbrev S128x8192 : Shape := ⟨2, ![128, 8192]⟩
abbrev S8x8192 : Shape := ⟨2, ![8, 8192]⟩
abbrev S4x8192 : Shape := ⟨2, ![4, 8192]⟩
abbrev S2x8192 : Shape := ⟨2, ![2, 8192]⟩
abbrev S1x8192 : Shape := ⟨2, ![1, 8192]⟩

abbrev nBuf : Space → Nat
  | .hbm => 5
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S16384x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128x1, .f32⟩
  | .local _ .vmem, ⟨4, _⟩ => ⟨S8192x128, .f32⟩
  | .local _ .vmem, ⟨5, _⟩ => ⟨S8192x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S128x1 : S128.ShapeCasts S128x1
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  iota_S128x128_d0_w32 : S128x128.Iotas .tc 32 [0]
  iota_S128x128_d1_w32 : S128x128.Iotas .tc 32 [1]
  slices_S128x8192_o0_0_S8x8192 : S128x8192.Slices ![0, 0] S8x8192
  slices_S128x8192_o8_0_S8x8192 : S128x8192.Slices ![8, 0] S8x8192
  slices_S128x8192_o16_0_S8x8192 : S128x8192.Slices ![16, 0] S8x8192
  slices_S128x8192_o24_0_S8x8192 : S128x8192.Slices ![24, 0] S8x8192
  slices_S128x8192_o32_0_S8x8192 : S128x8192.Slices ![32, 0] S8x8192
  slices_S128x8192_o40_0_S8x8192 : S128x8192.Slices ![40, 0] S8x8192
  slices_S128x8192_o48_0_S8x8192 : S128x8192.Slices ![48, 0] S8x8192
  slices_S128x8192_o56_0_S8x8192 : S128x8192.Slices ![56, 0] S8x8192
  slices_S8x8192_o0_0_S4x8192 : S8x8192.Slices ![0, 0] S4x8192
  slices_S8x8192_o4_0_S4x8192 : S8x8192.Slices ![4, 0] S4x8192
  slices_S4x8192_o0_0_S2x8192 : S4x8192.Slices ![0, 0] S2x8192
  slices_S4x8192_o2_0_S2x8192 : S4x8192.Slices ![2, 0] S2x8192
  slices_S2x8192_o0_0_S1x8192 : S2x8192.Slices ![0, 0] S1x8192
  slices_S2x8192_o1_0_S1x8192 : S2x8192.Slices ![1, 0] S1x8192
  slices_S128x8192_o64_0_S8x8192 : S128x8192.Slices ![64, 0] S8x8192
  slices_S128x8192_o72_0_S8x8192 : S128x8192.Slices ![72, 0] S8x8192
  slices_S128x8192_o80_0_S8x8192 : S128x8192.Slices ![80, 0] S8x8192
  slices_S128x8192_o88_0_S8x8192 : S128x8192.Slices ![88, 0] S8x8192
  slices_S128x8192_o96_0_S8x8192 : S128x8192.Slices ![96, 0] S8x8192
  slices_S128x8192_o104_0_S8x8192 : S128x8192.Slices ![104, 0] S8x8192
  slices_S128x8192_o112_0_S8x8192 : S128x8192.Slices ![112, 0] S8x8192
  slices_S128x8192_o120_0_S8x8192 : S128x8192.Slices ![120, 0] S8x8192
  broadcasts_S1x8192_S128x8192 : S1x8192.Broadcasts S128x8192
  transposes_S128x8192_p1_0_S8192x128 : S128x8192.Transposes [1, 0] S8192x128
  dot_S128x128_S8192x128_S128x8192_1_1_0_0_n_n_wf : DotDims.WF S128x128 S8192x128 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S16384x128.size a
  hwx0_0 : ∀ i : grid0.Coords, EltTy.bits .f32 = 32 ∨ (Rect.block (s := S16384x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S16384x128.size a
  hwx0_3 : ∀ i : grid0.Coords, EltTy.bits .f32 = 32 ∨ (Rect.block (s := S16384x128) S8192x128.size (cc0_transform_3 i) (hinb0_3 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S16384 : Shape := ⟨1, ![16384]⟩
abbrev S16384x1 : Shape := ⟨2, ![16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S16384x128, .f32⟩
  | .hbm, ⟨5, _⟩ => ⟨S1x128, .f32⟩
  | .hbm, ⟨6, _⟩ => ⟨S16384x128, .f32⟩
  | .hbm, ⟨7, _⟩ => ⟨S16384x128, .f32⟩
  | .hbm, ⟨8, _⟩ => ⟨S_, .f32⟩
  | .hbm, ⟨9, _⟩ => ⟨S16384x128, .f32⟩
  | .hbm, ⟨10, _⟩ => ⟨S16384x128, .i1⟩
  | .hbm, ⟨11, _⟩ => ⟨S_, .f32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x128, .f32⟩
  | .hbm, ⟨19, _⟩ => ⟨S16384x128, .f32⟩
  | .hbm, ⟨20, _⟩ => ⟨S_, .f32⟩
  | .hbm, ⟨21, _⟩ => ⟨S_, .f32⟩
  | .hbm, ⟨22, _⟩ => ⟨S16384x128, .f32⟩
  | .hbm, ⟨23, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  dot_S16384x128_S128x128_S16384x128_1_0_0_1_n_n_wf : DotDims.WF S16384x128 S128x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.RowSpec.lean ====
/-
  One output row of the masked, normalised linear layer, as a function of the input row.

  For an input row `x : Fin 128 → EReal`, a weight matrix `A` (128 × 128) and a bias `b`:
    pred d    = (∑ k, A d k · x k) + b d                      the prediction for feature d
    masked d  = pred d where x d ≠ 0, else 0
    total     = ∑ d, masked d
    out q     = pred q / total where x q ≠ 0, else 0.
  Both programs compute exactly this row by row; this file fixes the function and proves the two
  facts about extended reals that the comparison needs:
    * a row of the identity matrix picks one entry out of a sum of products (no finiteness is needed:
      0 · x = 0 and 1 · x = x for every extended real x);
    * reading a slice of rows of a two-axis vector at a column.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RowSpec

open Idealize.ShloMosaic Idealize.ShloMosaic.ValueIdx

/-- The one-bit word "x is not zero". -/
def nz (x : EReal) : BitVec 1 := BitVec.ofBool (decide (x ≠ 0))

/-- Both the ordered and the unordered "not equal" comparison against zero are `nz`: the extended reals
    have no unordered pair. -/
theorem cmp_one_zero (x : EReal) : Ideal.cmp .one x 0 = nz x := rfl
theorem cmp_une_zero (x : EReal) : Ideal.cmp .une x 0 = nz x := rfl

/-- The prediction for feature `d`: row `d` of `A` against the input row, plus the bias. -/
def pred (x : Fin 128 → EReal) (A : (⟨2, ![128, 128]⟩ : Shape).Idx → EReal) (b : Fin 128 → EReal) (d : Fin 128) : EReal :=
  (∑ k : Fin 128, A (ix2 d k) * x k) + b d

/-- The prediction kept where the input entry is not zero. -/
def masked (x : Fin 128 → EReal) (A : (⟨2, ![128, 128]⟩ : Shape).Idx → EReal) (b : Fin 128 → EReal) (d : Fin 128) : EReal :=
  Scalar.select (nz (x d)) (pred x A b d) 0

/-- The row's sum of kept predictions. -/
def total (x : Fin 128 → EReal) (A : (⟨2, ![128, 128]⟩ : Shape).Idx → EReal) (b : Fin 128 → EReal) : EReal :=
  ∑ d : Fin 128, masked x A b d

/-- The output row: each kept prediction divided by the row's total. -/
def out (x : Fin 128 → EReal) (A : (⟨2, ![128, 128]⟩ : Shape).Idx → EReal) (b : Fin 128 → EReal) (q : Fin 128) : EReal :=
  Scalar.select (nz (x q)) (Ideal.div (pred x A b q) (total x A b)) 0

/-- A row of the identity matrix against a row `x` is the entry `x q`: every other term is `0 · x k = 0`. -/
theorem eye_row (x e : Fin 128 → EReal) (q : Fin 128) (he : ∀ k, e k = if q = k then 1 else 0) :
    ∑ k : Fin 128, e k * x k = x q := by
  rw [Finset.sum_eq_single q]
  · rw [he q, if_pos rfl, one_mul]
  · intro k _ hk
    rw [he k, if_neg (fun h => hk h.symm), zero_mul]
  · intro h; exact absurd (Finset.mem_univ q) h

/-- An entry of the identity matrix as the kernel builds it: the select on "row number equals column number",
    the numbers being 32-bit words of indices below 128, is 1 on the diagonal and 0 off it. -/
theorem eye_entry (q k : Fin 128) (one zero : EReal) (h1 : one = 1) (h0 : zero = 0) :
    Scalar.select (IntOp.cmpi .eq (BitVec.ofNat 32 q.val) (BitVec.ofNat 32 k.val)) one zero = if q = k then 1 else 0 := by
  subst h1 h0
  by_cases h : q = k
  · subst h
    simp [IntOp.cmpi, Scalar.select]
  · have hne : (BitVec.ofNat 32 q.val == BitVec.ofNat 32 k.val) = false := by
      rw [beq_eq_false_iff_ne]
      intro e
      apply h; apply Fin.ext
      have e' := congrArg BitVec.toNat e
      simp only [BitVec.toNat_ofNat] at e'
      have hq := q.isLt; have hk := k.isLt
      omega
    simp [IntOp.cmpi, Scalar.select, hne, h]

/-! ## A column of a two-axis vector, as a function of the row number -/

/-- Column `p` of an `n × c` vector as a function on the naturals: entry `(d, p)` for `d < n`, zero beyond. -/
def colN {n c : ℕ} (u : (⟨2, ![n, c]⟩ : Shape).Idx → EReal) (p : Fin c) (d : ℕ) : EReal :=
  if h : d < n then u (ix2 ⟨d, h⟩ p) else 0

theorem colN_val {n c : ℕ} (u : (⟨2, ![n, c]⟩ : Shape).Idx → EReal) (p : Fin c) (j : Fin n) :
    u (ix2 j p) = colN u p j.val := by
  unfold colN; rw [dif_pos j.isLt]

theorem colN_lit {n c : ℕ} (u : (⟨2, ![n, c]⟩ : Shape).Idx → EReal) (p : Fin c) (d : ℕ) (h : d < n) :
    colN u p d = u (ix2 ⟨d, h⟩ p) := by
  unfold colN; rw [dif_pos h]

/-- The column of an entrywise sum is the sum of the columns. -/
theorem colN_addf {n c : ℕ} (a b : FVec Ideal ⟨2, ![n, c]⟩ .f32) (p : Fin c) (d : ℕ) :
    colN (addf a b) p d = colN a p d + colN b p d := by
  unfold colN
  by_cases h : d < n
  · rw [dif_pos h, dif_pos h, dif_pos h]; rfl
  · rw [dif_neg h, dif_neg h, dif_neg h, add_zero]

/-- The column of a slice of `k` rows starting at row `o` is the column shifted by `o`. -/
theorem colN_slice {n k c : ℕ} (o : ℕ) (u : (⟨2, ![n, c]⟩ : Shape).Idx → EReal)
    (h : (⟨2, ![n, c]⟩ : Shape).Slices ![o, 0] ⟨2, ![k, c]⟩) (p : Fin c) (d : ℕ) (hd : d < k) (ho : o + k ≤ n) :
    colN (extractStridedSlice ⟨2, ![k, c]⟩ ![o, 0] u h) p d = colN u p (o + d) := by
  unfold colN
  rw [dif_pos hd, dif_pos (show o + d < n by omega)]
  refine extractStridedSlice_apply _ u h _ _ (fun a => ?_)
  match a with
  | ⟨0, _⟩ => rfl
  | ⟨1, _⟩ => exact (Nat.zero_add _).symm

end Cert.RowSpec

end
-- ==== Proof.KernelRow.lean ====
/-
  The kernel body's stored value, read one element at a time.

  The body works on the TRANSPOSED block: for a block of 8192 input rows it forms the 128 × 8192 array of
  predictions (feature `q`, row `p`), the 128 × 8192 mask from the transposed block (obtained as the product
  with the identity matrix), sums each column of the masked predictions by a fixed tree of row slices, divides,
  masks and transposes back. Read at entry (row `p`, feature `q`) of the stored block this is
  `RowSpec.out` of row `p` of the input block.
-/
import proofs.«141434_g53919019433997_cont_9to1c4b_248_9_alg».proof.Proof.Gen.KernelIdeal.Skeleton
import proofs.«141434_g53919019433997_cont_9to1c4b_248_9_alg».proof.Proof.RowSpec
import Idealize.ShloMosaic.Lib.ValueIdx
import Idealize.ShloMosaic.Lib.Pipeline.Value
import Idealize.ShloMosaic.PureOps.Ideal.Laws
import Mathlib.Algebra.BigOperators.Fin
import Mathlib.Tactic.Abel

noncomputable section

open scoped BigOperators

namespace Cert.KernelIdeal.Row

open Cert.KernelIdeal Cert.KernelIdeal.Gen Cert.RowSpec
open Idealize.ShloMosaic Idealize.ShloMosaic.ValueIdx

/-! ## The matrix product of the body at an index -/

theorem lhs_axis0 (j : S128x8192.Idx) (k : dot_S128x128_S8192x128_S128x8192_1_1_0_0_n_n.contr.Idx) :
    (dot_S128x128_S8192x128_S128x8192_1_1_0_0_n_n.lhsIdx j k 0).val = (j 0).val := rfl

theorem rhs_axis0 (j : S128x8192.Idx) (k : dot_S128x128_S8192x128_S128x8192_1_1_0_0_n_n.contr.Idx) :
    (dot_S128x128_S8192x128_S128x8192_1_1_0_0_n_n.rhsIdx j k 0).val = (j 1).val := rfl

theorem lhs_axis1 (j : S128x8192.Idx) (k : dot_S128x128_S8192x128_S128x8192_1_1_0_0_n_n.contr.Idx) :
    (dot_S128x128_S8192x128_S128x8192_1_1_0_0_n_n.lhsIdx j k 1).val = (k ⟨0, by decide⟩).val :=
  dot_S128x128_S8192x128_S128x8192_1_1_0_0_n_n.lhsIdx_val_of_single rfl j k

theorem rhs_axis1 (j : S128x8192.Idx) (k : dot_S128x128_S8192x128_S128x8192_1_1_0_0_n_n.contr.Idx) :
    (dot_S128x128_S8192x128_S128x8192_1_1_0_0_n_n.rhsIdx j k 1).val = (k ⟨0, by decide⟩).val :=
  dot_S128x128_S8192x128_S128x8192_1_1_0_0_n_n.rhsIdx_val_of_single rfl j k

/-- The body's product of a 128 × 128 matrix `l` with the transposed block: entry (q, p) is row `q` of `l`
    against row `p` of the block. -/
theorem matmul_at (l : FVec Ideal S128x128 .f32) (x0 : FVec Ideal S8192x128 .f32) (q : Fin 128) (p : Fin 8192) :
    matmul dot_S128x128_S8192x128_S128x8192_1_1_0_0_n_n none l x0 (constant S128x8192 .f32 0x00000000#32) (ix2 q p)
      = ∑ k : Fin 128, l (ix2 q k) * x0 (ix2 p k) := by
  simp only [matmul]
  rw [Ideal.matmul_constant_zero_apply,
    ← Equiv.sum_comp (contrEquiv1 dot_S128x128_S8192x128_S128x8192_1_1_0_0_n_n 128 rfl rfl).symm]
  refine Finset.sum_congr rfl fun k _ => ?_
  have hk := contrEquiv1_symm_val dot_S128x128_S8192x128_S128x8192_1_1_0_0_n_n 128 rfl rfl k
  congr 1
  · congr 1
    funext a; apply Fin.ext
    match a with
    | ⟨0, _⟩ => exact lhs_axis0 _ _
    | ⟨1, _⟩ => exact (lhs_axis1 _ _).trans hk
  · congr 1
    funext a; apply Fin.ext
    match a with
    | ⟨0, _⟩ => exact rhs_axis0 _ _
    | ⟨1, _⟩ => exact (rhs_axis1 _ _).trans hk

/-! ## The predictions, the mask and the masked predictions at an index -/

/-- Row `p` of the input block, the bias column as a function of the feature. -/
abbrev rowOf (x0 : FVec Ideal S8192x128 .f32) (p : Fin 8192) : Fin 128 → EReal := fun k => x0 (ix2 p k)
abbrev biasOf (x2 : FVec Ideal S128x1 .f32) : Fin 128 → EReal := fun d => x2 (ix2 d 0)

/-- The prediction array at (q, p): feature `q` of row `p`. -/
theorem pay2_at (x0 : FVec Ideal S8192x128 .f32) (x1 : FVec Ideal S128x128 .f32) (x2 : FVec Ideal S128x1 .f32)
    (q : Fin 128) (p : Fin 8192) :
    k0_pay2 (F := Ideal) x0 x1 x2 (ix2 q p) = pred (rowOf x0 p) x1 (biasOf x2) q := by
  unfold k0_pay2 pred
  rw [addf_apply, matmul_at, shapeCast_self]
  congr 1
  exact broadcastTo_apply x2 _ (ix2 q p) (ix2 q 0) (fun a => by
    match a with
    | ⟨0, _⟩ => rfl
    | ⟨1, _⟩ => rfl)

/-- The mask at (q, p): the product of the identity matrix with the transposed block is entry (p, q) of the
    block, compared with zero. -/
theorem pay3_at (x0 : FVec Ideal S8192x128 .f32) (q : Fin 128) (p : Fin 8192) :
    k0_pay3 (F := Ideal) x0 (ix2 q p) = nz (x0 (ix2 p q)) := by
  unfold k0_pay3
  dsimp only
  rw [cmpf_apply, matmul_at, broadcast_apply]
  rw [eye_row (rowOf x0 p) _ q (fun k => by
    rw [select_apply, broadcast_apply, broadcast_apply]
    show Scalar.select (IntOp.cmpi .eq (iota .tc S128x128 32 [0] _ (ix2 q k)) (iota .tc S128x128 32 [1] _ (ix2 q k))) _ _ = _
    rw [iota_single_apply, iota_single_apply]
    exact eye_entry q k _ _ (IdealRules.sign_bit.ideal_onePat .f32) Ideal.ofBits_zero_f32)]
  show Ideal.cmp .one (x0 (ix2 p q)) (Ideal.ofBits .f32 0x00000000#32) = _
  rw [Ideal.ofBits_zero_f32, cmp_one_zero]

/-- The masked predictions at (d, p). -/
theorem pay4_at (x0 : FVec Ideal S8192x128 .f32) (x1 : FVec Ideal S128x128 .f32) (x2 : FVec Ideal S128x1 .f32)
    (d : Fin 128) (p : Fin 8192) :
    k0_pay4 (F := Ideal) x0 x1 x2 (ix2 d p) = masked (rowOf x0 p) x1 (biasOf x2) d := by
  unfold k0_pay4 masked
  rw [select_apply, pay2_at, pay3_at, broadcast_apply]
  show Scalar.select _ _ (Ideal.ofBits .f32 0x00000000#32) = _
  rw [Ideal.ofBits_zero_f32]

/-! ## The column sums

The body adds the 128 rows of the masked predictions in two halves of 64: in each half eight slices of eight
rows are added in order, and the eight rows of the result are folded by halves (8 → 4 → 2 → 1). Addition of
extended reals is commutative and associative, so column `p` of the result is the plain sum of column `p`. -/

/-- The first half, as the first part of the body leaves it: the sum of rows 0 … 63. -/
theorem pay5_col (x0 : FVec Ideal S8192x128 .f32) (x1 : FVec Ideal S128x128 .f32) (x2 : FVec Ideal S128x1 .f32)
    (p : Fin 8192) :
    colN (k0_pay5 (F := Ideal) x0 x1 x2) p 0
      = ∑ d ∈ Finset.range 64, colN (k0_pay4 (F := Ideal) x0 x1 x2) p d := by
  unfold k0_pay5
  dsimp only
  generalize k0_pay4 (F := Ideal) x0 x1 x2 = W
  simp (disch := omega) only [colN_addf, colN_slice, Nat.reduceAdd]
  simp only [Finset.sum_range_succ, Finset.sum_range_zero, zero_add]
  abel

/-- The second half's first three slices, which the first part of the body has already added. -/
theorem pay6_col (x0 : FVec Ideal S8192x128 .f32) (x1 : FVec Ideal S128x128 .f32) (x2 : FVec Ideal S128x1 .f32)
    (p : Fin 8192) (j : ℕ) (hj : j < 8) :
    colN (k0_pay6 (F := Ideal) x0 x1 x2) p j
      = colN (k0_pay4 (F := Ideal) x0 x1 x2) p (64 + j) + colN (k0_pay4 (F := Ideal) x0 x1 x2) p (72 + j)
        + colN (k0_pay4 (F := Ideal) x0 x1 x2) p (80 + j) := by
  unfold k0_pay6
  dsimp only
  generalize k0_pay4 (F := Ideal) x0 x1 x2 = W
  simp (disch := omega) only [colN_addf, colN_slice]

/-- A column of a 128-row vector summed over `Fin 128` is its sum over the first 128 naturals. -/
theorem sum_col (W : FVec Ideal S128x8192 .f32) (p : Fin 8192) :
    ∑ d : Fin 128, W (ix2 d p) = ∑ d ∈ Finset.range 128, colN W p d := by
  have h : ∀ d : Fin 128, W (ix2 d p) = colN W p d.val := fun d => colN_val W p d
  simp only [h]
  exact Fin.sum_univ_eq_sum_range (fun d => colN W p d) 128

/-- The stored value at (p, q), for any prediction array `v6`, mask `v15` and masked predictions `W`, given
    what the first part of the body hands over (`v41`: rows 0 … 63 summed; `v46`: three slices of the second
    half): the select on the mask at (q, p) of the prediction at (q, p) over the sum of column `p` of `W`. -/
theorem pay1_at (v6 : FVec Ideal S128x8192 .f32) (v15 : IVec S128x8192 1) (W : FVec Ideal S128x8192 .f32)
    (v41 : FVec Ideal S1x8192 .f32) (v46 : FVec Ideal S8x8192 .f32) (p : Fin 8192) (q : Fin 128)
    (h41 : colN v41 p 0 = ∑ d ∈ Finset.range 64, colN W p d)
    (h46 : ∀ j, j < 8 → colN v46 p j = colN W p (64 + j) + colN W p (72 + j) + colN W p (80 + j)) :
    k0_pay1 (F := Ideal) v6 v15 W v41 v46 (ix2 p q)
      = Scalar.select (v15 (ix2 q p)) (Ideal.div (v6 (ix2 q p)) (∑ d : Fin 128, W (ix2 d p))) 0 := by
  unfold k0_pay1
  dsimp only
  rw [transpose_apply _ _ _ (ix2 p q) (ix2 q p) (fun b => by
    match b with
    | ⟨0, _⟩ => rfl
    | ⟨1, _⟩ => rfl)]
  rw [select_apply, divf_apply, broadcast_apply]
  rw [broadcastTo_apply _ _ (ix2 q p) (ix2 (0 : Fin 1) p) (fun a => by
    match a with
    | ⟨0, _⟩ => rfl
    | ⟨1, _⟩ => rfl)]
  show Scalar.select _ (Ideal.div _ _) (Ideal.ofBits .f32 0x00000000#32) = _
  rw [Ideal.ofBits_zero_f32]
  congr 2
  refine (colN_val _ p (0 : Fin 1)).trans ?_
  rw [Fin.val_zero, sum_col]
  simp (disch := omega) only [colN_addf, colN_slice, Nat.reduceAdd, h41, h46]
  simp only [Finset.sum_range_succ, Finset.sum_range_zero, zero_add]
  abel

/-! ## The stored block at an index -/

/-- Entry (p, q) of the block the body stores is `RowSpec.out` of row `p` of the input block at feature `q`. -/
theorem stored_at (x0 : FVec Ideal S8192x128 .f32) (x1 : FVec Ideal S128x128 .f32) (x2 : FVec Ideal S128x1 .f32)
    (p : Fin 8192) (q : Fin 128) :
    k0_pay1 (F := Ideal) (k0_pay2 (F := Ideal) x0 x1 x2) (k0_pay3 (F := Ideal) x0) (k0_pay4 (F := Ideal) x0 x1 x2)
        (k0_pay5 (F := Ideal) x0 x1 x2) (k0_pay6 (F := Ideal) x0 x1 x2) (ix2 p q)
      = out (rowOf x0 p) x1 (biasOf x2) q := by
  rw [pay1_at _ _ _ _ _ p q (pay5_col x0 x1 x2 p) (fun j hj => pay6_col x0 x1 x2 p j hj)]
  unfold out total
  rw [pay2_at, pay3_at]
  simp only [pay4_at]

end Cert.KernelIdeal.Row

end
-- ==== Proof.KernelValue.lean ====
/-
  The kernel's result array after the run, as one function of the argument arrays.

  The grid has two points; point `t` stages rows 8192·t … 8192·t + 8191 of the input, the whole weight matrix
  and the whole bias column, and writes back the same rows of the result. Each row of what it writes back is
  `RowSpec.out` of the corresponding input row, so the two blocks together are the row-by-row function of the
  whole input; they cover the result array.
-/
import proofs.«141434_g53919019433997_cont_9to1c4b_248_9_alg».proof.Proof.ValueBlocks
import proofs.«141434_g53919019433997_cont_9to1c4b_248_9_alg».proof.Proof.KernelRow
import Idealize.ShloMosaic.Lib.Pipeline.Value
import Idealize.ShloMosaic.Lib.StableHlo.Run

noncomputable section

namespace Cert.KernelIdeal.Whole

open Cert.KernelIdeal Cert.KernelIdeal.Gen Cert.KernelIdeal.Row Cert.RowSpec
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The stored block as a function of the block index: row by row. -/
theorem stored_block (x0 : FVec Ideal S8192x128 .f32) (x1 : FVec Ideal S128x128 .f32) (x2 : FVec Ideal S128x1 .f32) :
    k0_pay1 (F := Ideal) (k0_pay2 (F := Ideal) x0 x1 x2) (k0_pay3 (F := Ideal) x0) (k0_pay4 (F := Ideal) x0 x1 x2)
        (k0_pay5 (F := Ideal) x0 x1 x2) (k0_pay6 (F := Ideal) x0 x1 x2)
      = fun j => out (rowOf x0 (j 0)) x1 (biasOf x2) (j 1) := by
  funext j
  obtain ⟨p, q, rfl⟩ : ∃ (p : Fin 8192) (q : Fin 128), j = ix2 p q := ⟨j 0, j 1, eq_ix2 j⟩
  exact stored_at x0 x1 x2 p q

/-- The result array as the row-by-row function of the arrays the region finds. -/
abbrev G (c : Dev nD) : S16384x128.Idx → EReal := fun i =>
  out (fun k => V m c main_arg0 (ix2 (i 0) k)) (V m c main_arg1) (fun d => V m c main_v0 (ix2 d 0)) (i 1)

/-- The index maps over the two grid points: the input's and the result's row blocks move together, everything
    else stays at block zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What point `t` writes back is block `t` of `G`. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz]
  simp only [View.ld_unit_zero (S := S8192x128) hz, View.ld_unit_zero (S := S128x128) hz, View.ld_unit_zero (S := S128x1) hz]
  rw [stored_block (iblk m c 0 t) (iblk m c 1 t) (iblk m c 2 t)]
  obtain ⟨e0, e1, e2, e3, e4, e5, e6, e7⟩ := idx_facts t
  funext j
  show out (rowOf (iblk m c 0 t) (j 0)) (iblk m c 1 t) (biasOf (iblk m c 2 t)) (j 1)
    = out (fun k => V m c main_arg0 (ix2 ((((cfg0.win 3).blk t).view.emb j) 0) k)) (V m c main_arg1)
        (fun d => V m c main_v0 (ix2 d 0)) ((((cfg0.win 3).blk t).view.emb j) 1)
  have hrow : rowOf (iblk m c 0 t) (j 0) = fun k => V m c main_arg0 (ix2 ((((cfg0.win 3).blk t).view.emb j) 0) k) := by
    funext k
    show V m c main_arg0 (((cfg0.win 0).blk t).view.emb (ix2 (j 0) k)) = V m c main_arg0 (ix2 ((((cfg0.win 3).blk t).view.emb j) 0) k)
    refine congrArg _ (funext fun a => Fin.ext ?_)
    match a with
    | ⟨0, _⟩ =>
      show win0_0.index t (0 : Fin 2) * 8192 + 1 * (j 0).val = win0_3.index t (0 : Fin 2) * 8192 + 1 * (j 0).val
      rw [e0]
    | ⟨1, _⟩ =>
      show win0_0.index t (1 : Fin 2) * 128 + 1 * k.val = k.val
      rw [e1]; omega
  have hA : iblk m c 1 t = V m c main_arg1 := by
    funext y
    show V m c main_arg1 (((cfg0.win 1).blk t).view.emb y) = V m c main_arg1 y
    refine congrArg _ (funext fun a => Fin.ext ?_)
    match a with
    | ⟨0, _⟩ =>
      show win0_1.index t (0 : Fin 2) * 128 + 1 * (y 0).val = (y 0).val
      rw [e2]; omega
    | ⟨1, _⟩ =>
      show win0_1.index t (1 : Fin 2) * 128 + 1 * (y 1).val = (y 1).val
      rw [e3]; omega
  have hB : biasOf (iblk m c 2 t) = fun d => V m c main_v0 (ix2 d 0) := by
    funext d
    show V m c main_v0 (((cfg0.win 2).blk t).view.emb (ix2 d 0)) = V m c main_v0 (ix2 d 0)
    refine congrArg _ (funext fun a => Fin.ext ?_)
    match a with
    | ⟨0, _⟩ =>
      show win0_2.index t (0 : Fin 2) * 128 + 1 * d.val = d.val
      rw [e4]; omega
    | ⟨1, _⟩ =>
      show win0_2.index t (1 : Fin 2) * 1 + 1 * 0 = 0
      rw [e5]
  have hq : j 1 = (((cfg0.win 3).blk t).view.emb j) 1 := Fin.ext (by
    show (j 1).val = win0_3.index t (1 : Fin 2) * 128 + 1 * (j 1).val
    rw [e6]; omega)
  rw [hrow, hA, hB, ← hq]

/-- An index of the result array is in point `t`'s block iff each coordinate is in the block's range. -/
theorem mem_blk (t : Fin cfg0.N) (i : S16384x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v1).slice (win0_3.rect t)).set ↔ _
  rw [View.set_slice_whole, Rect.mem_set_unit]
  exact Iff.rfl

/-- The two blocks cover the result array: row `r` lies in the block of point `r / 8192`. -/
theorem cover (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 2 := N_0
  refine ⟨⟨(i 0).val / 8192, by rw [hN]; omega⟩, flush0_3 _, ?_⟩
  obtain ⟨e0, e1, e2, e3, e4, e5, e6, e7⟩ := idx_facts ⟨(i 0).val / 8192, by rw [hN]; omega⟩
  rw [mem_blk]
  intro a
  match a with
  | ⟨0, _⟩ =>
    show win0_3.index _ (0 : Fin 2) * 8192 ≤ (i 0).val ∧ (i 0).val < win0_3.index _ (0 : Fin 2) * 8192 + 8192
    rw [e7]
    show (i 0).val / 8192 * 8192 ≤ (i 0).val ∧ (i 0).val < (i 0).val / 8192 * 8192 + 8192
    omega
  | ⟨1, _⟩ =>
    show win0_3.index _ (1 : Fin 2) * 128 ≤ (i 1).val ∧ (i 1).val < win0_3.index _ (1 : Fin 2) * 128 + 128
    rw [e6]; omega

/-- The result array after the run is `G`. -/
theorem final (c : Dev nD) : (dats m 0 c).arrAt 3 cfg0.N = G m c :=
  (dats m 0 c).arrAt_eq_of_cover 3 (G m c) (fun t _ => flushed_eq m c t) cover

/-- The bias column the region finds is the bias argument, reshaped from [128] to [128, 1]. -/
theorem V_bias (c : Dev nD) :
    (V m c main_v0 : S128x1.Idx → EReal) = shapeCast S128x1 (m ((c : Thread nD τ).loc main_arg2)) shapeCasts_S128_S128x1 := by
  dsimp only [Gen.V, Gen.hostOps0]
  after_results
  rfl

theorem bias_at (c : Dev nD) (d : Fin 128) :
    V m c main_v0 (ix2 d 0) = m ((c : Thread nD τ).loc main_arg2) (ix1 d) := by
  rw [V_bias]
  exact shapeCast_apply _ _ (ix2 d 0) (ix1 d) (by
    rw [Shape.rowMajor_val_one, Shape.rowMajor_val_two]
    show d.val = d.val * 1 + 0
    omega)

/-- `G` over the argument arrays as launched. -/
theorem G_eq (c : Dev nD) :
    G m c = fun i => out (fun k => m ((c : Thread nD τ).loc main_arg0) (ix2 (i 0) k)) (m ((c : Thread nD τ).loc main_arg1))
      (fun d => m ((c : Thread nD τ).loc main_arg2) (ix1 d)) (i 1) := by
  funext i
  show out (fun k => V m c main_arg0 (ix2 (i 0) k)) (V m c main_arg1) (fun d => V m c main_v0 (ix2 d 0)) (i 1) = _
  have hb : (fun d : Fin 128 => V m c main_v0 (ix2 d 0)) = fun d => m ((c : Thread nD τ).loc main_arg2) (ix1 d) :=
    funext fun d => bias_at m c d
  rw [V_main_arg0, V_main_arg1, hb]

/-- The kernel's run: the result array is the row-by-row function of the arguments, which are unchanged. -/
theorem run : θ_run defs (onTc (τ := τ) (main (F := Ideal))) ⟨m, fun _ => 0, ρ⟩ fun r => ∀ c : Dev nD,
      r.2.mem ((c : Thread nD τ).loc main_v1)
        = (fun i => out (fun k => m ((c : Thread nD τ).loc main_arg0) (ix2 (i 0) k)) (m ((c : Thread nD τ).loc main_arg1))
            (fun d => m ((c : Thread nD τ).loc main_arg2) (ix1 d)) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (G_eq m c)), (h c).2⟩)
    (Value.run_blocks m ρ)

end Cert.KernelIdeal.Whole

end
-- ==== Proof.RefRow.lean ====
/-
  The reference, read one element at a time: entry (r, d) of its result is `RowSpec.out` of row `r` of the
  input at feature `d`.

  The reference multiplies the input by the transposed weight matrix, so its product at (r, d) is
  `∑ k, X r k · A d k`; the factors commute. Its row sum starts from the constant zero, which adds nothing.
-/
import proofs.«141434_g53919019433997_cont_9to1c4b_248_9_alg».proof.Proof.Gen.ReferenceIdeal.Read
import proofs.«141434_g53919019433997_cont_9to1c4b_248_9_alg».proof.Proof.RowSpec
import Idealize.ShloMosaic.Lib.ValueIdx
import Idealize.ShloMosaic.PureOps.Ideal.Laws

noncomputable section

open scoped BigOperators

namespace Cert.ReferenceIdeal.Row

open Cert.ReferenceIdeal Cert.ReferenceIdeal.Gen Cert.ReferenceIdeal.Read Cert.RowSpec
open Idealize.ShloMosaic Idealize.ShloMosaic.ValueIdx

/-- Row `r` of the input, and the bias as a function of the feature. -/
abbrev xrow (X : (⟨S16384x128, .f32⟩ : BufTy).Contents (Elt Ideal)) (r : Fin 16384) : Fin 128 → EReal := fun k => X (ix2 r k)
abbrev bvec (b : (⟨S128, .f32⟩ : BufTy).Contents (Elt Ideal)) : Fin 128 → EReal := fun d => b (ix1 d)

/-- The reference's zero constants denote zero. -/
theorem zero_lit : FloatOps.ofBits (F := Ideal) .f32 0x00000000#32 = (0 : EReal) := Ideal.ofBits_zero_f32

/-- The prediction at (r, d). -/
theorem v4_at (X : (⟨S16384x128, .f32⟩ : BufTy).Contents (Elt Ideal)) (A : (⟨S128x128, .f32⟩ : BufTy).Contents (Elt Ideal))
    (b : (⟨S128, .f32⟩ : BufTy).Contents (Elt Ideal)) (r : Fin 16384) (d : Fin 128) :
    val_main_v4 (F := Ideal) X A b (ix2 r d) = pred (xrow X r) A (bvec b) d := by
  have hl : ∀ k : Fin 128, lidx_main_v1 (ix2 r d) k = ix2 r k := fun k => funext fun a => Fin.ext (by
    match a with
    | ⟨0, _⟩ => rfl
    | ⟨1, _⟩ => rfl)
  have hr : ∀ k : Fin 128, idx_main_v0 (ridx_main_v1 (ix2 r d) k) = ix2 d k := fun k => funext fun a => Fin.ext (by
    match a with
    | ⟨0, _⟩ => rfl
    | ⟨1, _⟩ => rfl)
  have hb : idx_main_v2 (idx_main_v3 (ix2 r d)) = ix1 d := funext fun a => Fin.ext (by
    match a with
    | ⟨0, _⟩ => rfl)
  rw [val_main_v4_apply, val_main_v1_apply, val_main_v3_apply, val_main_v2_apply, hb]
  simp only [val_main_v0_apply, hl, hr]
  unfold pred
  show (∑ k : Fin 128, X (ix2 r k) * A (ix2 d k)) + b (ix1 d) = (∑ k : Fin 128, A (ix2 d k) * X (ix2 r k)) + b (ix1 d)
  exact congrArg (· + b (ix1 d)) (Finset.sum_congr rfl fun k _ => mul_comm _ _)

/-- The mask at (r, d). -/
theorem v6_at (X : (⟨S16384x128, .f32⟩ : BufTy).Contents (Elt Ideal)) (r : Fin 16384) (d : Fin 128) :
    val_main_v6 (F := Ideal) X (ix2 r d) = nz (X (ix2 r d)) := by
  rw [val_main_v6_apply, val_main_v5_apply, val_main_cst_apply, zero_lit]
  exact cmp_une_zero _

/-- The masked prediction at (r, d). -/
theorem v7_at (X : (⟨S16384x128, .f32⟩ : BufTy).Contents (Elt Ideal)) (A : (⟨S128x128, .f32⟩ : BufTy).Contents (Elt Ideal))
    (b : (⟨S128, .f32⟩ : BufTy).Contents (Elt Ideal)) (r : Fin 16384) (d : Fin 128) :
    val_main_v7 (F := Ideal) X A b (ix2 r d) = masked (xrow X r) A (bvec b) d := by
  rw [val_main_v7_apply, v6_at, v4_at, val_main_call0_v1_apply, val_main_call0_v0_apply, val_main_cst_0_apply, zero_lit]
  rfl

/-- The row sum at `r`. -/
theorem v8_at (X : (⟨S16384x128, .f32⟩ : BufTy).Contents (Elt Ideal)) (A : (⟨S128x128, .f32⟩ : BufTy).Contents (Elt Ideal))
    (b : (⟨S128, .f32⟩ : BufTy).Contents (Elt Ideal)) (r : Fin 16384) :
    val_main_v8 (F := Ideal) X A b (ix1 r) = total (xrow X r) A (bvec b) := by
  have hi : ∀ k : Fin 128, idx_main_v8 (ix1 r) k = ix2 r k := fun k => funext fun a => Fin.ext (by
    match a with
    | ⟨0, _⟩ => rfl
    | ⟨1, _⟩ => rfl)
  rw [val_main_v8_apply, val_main_cst_1_apply, zero_lit, zero_add]
  unfold total
  exact Finset.sum_congr rfl fun k _ => by rw [hi, v7_at]

/-- The result at (r, d). -/
theorem v12_at (X : (⟨S16384x128, .f32⟩ : BufTy).Contents (Elt Ideal)) (A : (⟨S128x128, .f32⟩ : BufTy).Contents (Elt Ideal))
    (b : (⟨S128, .f32⟩ : BufTy).Contents (Elt Ideal)) (r : Fin 16384) (d : Fin 128) :
    val_main_v12 (F := Ideal) X A b (ix2 r d) = out (xrow X r) A (bvec b) d := by
  have hi : idx_main_v9 (idx_main_v10 (ix2 r d)) = ix1 r := funext fun a => Fin.ext (by
    match a with
    | ⟨0, _⟩ => rfl)
  rw [val_main_v12_apply, v6_at, val_main_v11_apply, v4_at, val_main_v10_apply, val_main_v9_apply, hi, v8_at,
    val_main_call1_v1_apply, val_main_call1_v0_apply, val_main_cst_2_apply, zero_lit]
  rfl

/-- The whole result is the row-by-row function. -/
theorem result_eq (X : (⟨S16384x128, .f32⟩ : BufTy).Contents (Elt Ideal)) (A : (⟨S128x128, .f32⟩ : BufTy).Contents (Elt Ideal))
    (b : (⟨S128, .f32⟩ : BufTy).Contents (Elt Ideal)) :
    val_main_v12 (F := Ideal) X A b = fun i => out (xrow X (i 0)) A (bvec b) (i 1) := by
  funext i
  obtain ⟨r, d, rfl⟩ : ∃ (r : Fin 16384) (d : Fin 128), i = ix2 r d := ⟨i 0, i 1, eq_ix2 i⟩
  exact v12_at X A b r d

end Cert.ReferenceIdeal.Row

end
-- ==== Proof.lean ====
/-
  Masked, normalised linear layer: the fused kernel against the plain reference, over the extended reals.

  Both programs compute, for every input row `x` (128 entries), weight matrix `A` and bias `b`,
    pred d = (∑ k, A d k · x k) + b d,   masked d = pred d where x d ≠ 0 else 0,
    out q  = pred q / (∑ d, masked d) where x q ≠ 0 else 0
  (`RowSpec.out`). The kernel works on transposed blocks of 8192 rows: it obtains the transposed input as a
  product with the identity matrix (exact on every extended real: 1 · x = x, 0 · x = 0), sums each column of
  the masked predictions by a fixed tree of slices (a rearrangement of a finite sum in a commutative monoid),
  divides, masks and transposes back; the reference multiplies by the transposed weights (the factors of each
  product commute) and starts its row sums from zero. No step needs the inputs to be finite.

  The three frames are the generated ones (the reference's is its run with the result dropped); the ideal
  pass rewrote nothing, so `preserves` is trivial; `algebraic` puts the kernel's run (`KernelValue`) beside
  the reference's generated run read row by row (`RefRow`).
-/
import proofs.«141434_g53919019433997_cont_9to1c4b_248_9_alg».proof.Defs
import proofs.«141434_g53919019433997_cont_9to1c4b_248_9_alg».proof.Proof.Gen.Kernel
import proofs.«141434_g53919019433997_cont_9to1c4b_248_9_alg».proof.Proof.Gen.Kernel.Skeleton
import proofs.«141434_g53919019433997_cont_9to1c4b_248_9_alg».proof.Proof.Gen.Kernel.Launch
import proofs.«141434_g53919019433997_cont_9to1c4b_248_9_alg».proof.Proof.Gen.Kernel.Points
import proofs.«141434_g53919019433997_cont_9to1c4b_248_9_alg».proof.Proof.Gen.Kernel.Frame
import proofs.«141434_g53919019433997_cont_9to1c4b_248_9_alg».proof.Proof.Gen.KernelIdeal
import proofs.«141434_g53919019433997_cont_9to1c4b_248_9_alg».proof.Proof.Gen.KernelIdeal.Skeleton
import proofs.«141434_g53919019433997_cont_9to1c4b_248_9_alg».proof.Proof.Gen.KernelIdeal.Launch
import proofs.«141434_g53919019433997_cont_9to1c4b_248_9_alg».proof.Proof.Gen.KernelIdeal.Points
import proofs.«141434_g53919019433997_cont_9to1c4b_248_9_alg».proof.Proof.Gen.KernelIdeal.Frame
import proofs.«141434_g53919019433997_cont_9to1c4b_248_9_alg».proof.Proof.Gen.ReferenceIdeal
import proofs.«141434_g53919019433997_cont_9to1c4b_248_9_alg».proof.Proof.Gen.Pre_finite_inputs
import proofs.«141434_g53919019433997_cont_9to1c4b_248_9_alg».proof.Proof.Gen.ReferenceIdeal.Run
import proofs.«141434_g53919019433997_cont_9to1c4b_248_9_alg».proof.Proof.Gen.ReferenceIdeal.Read
import proofs.«141434_g53919019433997_cont_9to1c4b_248_9_alg».proof.Proof.RowSpec
import proofs.«141434_g53919019433997_cont_9to1c4b_248_9_alg».proof.Proof.ValueBlocks
import proofs.«141434_g53919019433997_cont_9to1c4b_248_9_alg».proof.Proof.KernelRow
import proofs.«141434_g53919019433997_cont_9to1c4b_248_9_alg».proof.Proof.KernelValue
import proofs.«141434_g53919019433997_cont_9to1c4b_248_9_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the row-by-row function `RowSpec.out` of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Row.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
